-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128x10 .f32) (main_arg7 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x10 .f32 := Host.absf main_arg6
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : IVec S100000 32) (main_arg3 : FVec F S100000x128 .f32) (main_arg4 : FVec F S256x128 .f32) (main_arg5 : FVec F S128 .f32) (main_arg6 : FVec F S128x10 .f32) (main_arg7 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x256 : Shape := ⟨2, ![100000, 256]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x10 : Shape := ⟨2, ![100000, 10]⟩
abbrev S5000x10 : Shape := ⟨2, ![5000, 10]⟩
abbrev S1700000x10 : Shape := ⟨2, ![1700000, 10]⟩
abbrev S1x10 : Shape := ⟨2, ![1, 10]⟩

abbrev nBuf : Space → Nat
  | .hbm => 93
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S100000x128, .f32⟩
  | .hbm, ⟨4, _⟩ => ⟨S256x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S100000x256, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x10, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x10, .f32⟩
  | .hbm, ⟨83, _⟩ => ⟨S1700000x1, .f32⟩
  | .hbm, ⟨84, _⟩ => ⟨S1700000x10, .f32⟩
  | .hbm, ⟨85, _⟩ => ⟨S1700000x10, .f32⟩
  | .hbm, ⟨86, _⟩ => ⟨S_, .f32⟩
  | .hbm, ⟨87, _⟩ => ⟨S100000x10, .f32⟩
  | .hbm, ⟨88, _⟩ => ⟨S1700000x1, .i32⟩
  | .hbm, ⟨89, _⟩ => ⟨S100000x10, .f32⟩
  | .hbm, ⟨90, _⟩ => ⟨S1x10, .f32⟩
  | .hbm, ⟨91, _⟩ => ⟨S100000x10, .f32⟩
  | .hbm, ⟨92, _⟩ => ⟨S100000x10, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x10, .f32⟩
  | .local _ .vmem, ⟨8, _⟩ => ⟨S5000x10, .f32⟩
  | .local _ .vmem, ⟨9, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S100000x128_S100000x128_S100000x256_d1 : Shape.Concatenates [S100000x128, S100000x128] S100000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x10_S128x10_0_0 : ∀ a, (![0, 0] : Fin 2 → Nat) a + S128x10.size a ≤ S128x10.size a
  h_S128x10 : 0 < S128x10.numel
  inb_S5000x10_S5000x10_0_0 : ∀ a, (![0, 0] : Fin 2 → Nat) a + S5000x10.size a ≤ S5000x10.size a
  h_S5000x10 : 0 < S5000x10.numel
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x10_S5000x10_1_0_0_1_n_n_wf : DotDims.WF S5000x128 S128x10 S5000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x10.size a ≤ S128x10.size a
  hwx1_1 : ∀ i : grid1.Coords, EltTy.bits .f32 = 32 ∨ (Rect.block (s := S128x10) S128x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x10.size a ≤ S100000x10.size a
  hwx1_2 : ∀ i : grid1.Coords, EltTy.bits .f32 = 32 ∨ (Rect.block (s := S100000x10) S5000x10.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

abbrev win0_0 : Pipeline.Window sig grid0 :=
  Pipeline.Window.ofSpec (Memref.whole main_v31) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x10.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S256x128 : Shape := ⟨2, ![256, 128]⟩
abbrev S128 : Shape := ⟨1, ![128]⟩
abbrev S128x10 : Shape := ⟨2, ![128, 10]⟩
abbrev S10 : Shape := ⟨1, ![10]⟩
abbrev S100000x256 : Shape := ⟨2, ![100000, 256]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x10 : Shape := ⟨2, ![100000, 10]⟩
abbrev S1700000x10 : Shape := ⟨2, ![1700000, 10]⟩
abbrev S1x10 : Shape := ⟨2, ![1, 10]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S100000x128, .f32⟩
  | 4 => ⟨S256x128, .f32⟩
  | 5 => ⟨S128, .f32⟩
  | 6 => ⟨S128x10, .f32⟩
  | 7 => ⟨S10, .f32⟩
  | 8 => ⟨S100000x128, .f32⟩
  | 9 => ⟨S100000x256, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x10, .f32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x10, .f32⟩
  | 119 => ⟨S1700000x1, .f32⟩
  | 120 => ⟨S1700000x10, .f32⟩
  | 121 => ⟨S1700000x10, .f32⟩
  | 122 => ⟨S_, .f32⟩
  | 123 => ⟨S100000x10, .f32⟩
  | 124 => ⟨S1700000x1, .i32⟩
  | 125 => ⟨S100000x10, .f32⟩
  | 126 => ⟨S1x10, .f32⟩
  | 127 => ⟨S100000x10, .f32⟩
  | _ => ⟨S100000x128, .f32⟩

abbrev hbmTy0_1 (i : Nat) : BufTy := match i % 128 with
  | 0 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_17 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  concatenates_S100000x128_S100000x128_S100000x256_d1 : Shape.Concatenates [S100000x128, S100000x128] S100000x256 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf

class Facts : Prop extends Facts₀ where

variable [Facts]
-- ==== Proof.Graph.lean ====
/-
  The network both programs compute, stage by stage, as functions of the argument arrays.

  A two-layer graph convolution over N = 100000 nodes and E = 1600000 listed edges. Every node gets a self-loop, so the
  edge list has E + N = 1700000 entries: sources `s` and destinations `d` are the two rows of the edge array, each
  followed by 0, 1, …, N − 1. A node number that is negative is counted from the end (`wrap` adds N to it). The degree of
  node v is the number of edges arriving at v, a scatter-add of ones along `d`; its inverse square root is taken where the
  degree is positive and is 0 elsewhere; an edge's weight is the product of that quantity at its two ends (`edgeNorm`).
  A layer takes node features h (already multiplied by the layer's matrix), gathers h at each edge's source, scales the
  row by the edge's weight, adds the rows up at each edge's destination, and adds the bias (`aggregate128`, `aggregate10`).
  The input of the first layer is the row [x − a, a] of width 256 (`features`); between the layers comes max(·, 0).

  The two dense products are parameters of `network`: the kernel computes them in its two tiled calls and the reference by
  one host product each, and every other stage is the same host operation in both programs. All of it is stated for any
  float family; only the products are ever read on the extended reals.
-/
import proofs.«157984_j29643864277070_1_alg».proof.KernelIdeal
import proofs.«157984_j29643864277070_1_alg».proof.Proof.Gen.KernelIdeal

noncomputable section

namespace Cert.KernelIdeal.Graph

open Cert.KernelIdeal Cert.KernelIdeal.Gen
open Idealize.ShloMosaic Idealize.ShloMosaic.TcCoe Idealize.SL.Sem

variable {F : FTy → Type} [FloatOps F]

/-- The source of every edge: row 0 of the edge array, then each node once more (its self-loop). -/
def srcIdx (ei : (⟨S2x1600000, .i32⟩ : BufTy).Contents (Elt F)) : (⟨S1700000, .i32⟩ : BufTy).Contents (Elt F) :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The destination of every edge: row 1 of the edge array, then each node once more. -/
def dstIdx (ei : (⟨S2x1600000, .i32⟩ : BufTy).Contents (Elt F)) : (⟨S1700000, .i32⟩ : BufTy).Contents (Elt F) :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A negative node number is counted from the end: N is added to it. -/
def wrap (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- How many edges arrive at each node: ones added up along the destinations. -/
def degree (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- 1 / sqrt(degree) where the degree is positive, 0 elsewhere. -/
def invSqrtDegree (d : (⟨S1700000, .i32⟩ : BufTy).Contents (Elt F)) : (⟨S100000, .f32⟩ : BufTy).Contents (Elt F) :=
  select (cmpf (F := F) .ogt (degree d) (broadcastInDim S100000 ![] bcast_S_S100000 (constant S_ .f32 0x00000000#32)))
    (Host.rsqrt (degree d))
    (broadcastInDim S100000 ![] bcast_S_S100000 (id (constant S_ .f32 0x00000000#32)))

/-- An edge's weight: the inverse square roots of the degrees of its two ends, multiplied. -/
def edgeNorm (s d : (⟨S1700000, .i32⟩ : BufTy).Contents (Elt F)) : (⟨S1700000, .f32⟩ : BufTy).Contents (Elt F) :=
  mulf
    (Host.gather gather_S100000_S1700000x1_S1700000_n_0_n_n_0_1_1 (invSqrtDegree d) (broadcastInDim S1700000x1 ![0] bcast_S1700000_S1700000x1_0 (wrap s)))
    (Host.gather gather_S100000_S1700000x1_S1700000_n_0_n_n_0_1_1 (invSqrtDegree d) (broadcastInDim S1700000x1 ![0] bcast_S1700000_S1700000x1_0 (wrap d)))

/-- The first layer's input: each node's row is [x − a, a], of width 256. -/
def features (x a : (⟨S100000x128, .f32⟩ : BufTy).Contents (Elt F)) : (⟨S100000x256, .f32⟩ : BufTy).Contents (Elt F) :=
  concatenate S100000x256 1 [⟨S100000x128, subf x a⟩, ⟨S100000x128, a⟩] concatenates_S100000x128_S100000x128_S100000x256_d1

/-- One round of message passing on rows of width 128: gather at the sources, scale by the edge weights, add up at the
    destinations, add the bias. -/
def aggregate128 (h : (⟨S100000x128, .f32⟩ : BufTy).Contents (Elt F)) (s d : (⟨S1700000, .i32⟩ : BufTy).Contents (Elt F)) (nrm : (⟨S1700000, .f32⟩ : BufTy).Contents (Elt F)) (b : (⟨S128, .f32⟩ : BufTy).Contents (Elt F)) : (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf
        (Host.gather gather_S100000x128_S1700000x1_S1700000x128_1_0_n_n_0_1_1128 h (broadcastInDim S1700000x1 ![0] bcast_S1700000_S1700000x1_0 (wrap s)))
        (broadcastInDim S1700000x128 ![0, 1] bcast_S1700000x1_S1700000x128_0_1 (broadcastInDim S1700000x1 ![0] bcast_S1700000_S1700000x1_0 nrm))))
    (broadcastInDim S100000x128 ![0, 1] bcast_S1x128_S100000x128_0_1 (broadcastInDim S1x128 ![1] bcast_S128_S1x128_1 b))

/-- max(h, 0), entry by entry. -/
def relu128 (h : (⟨S100000x128, .f32⟩ : BufTy).Contents (Elt F)) : (⟨S100000x128, .f32⟩ : BufTy).Contents (Elt F) :=
  maximumf h (broadcastInDim S100000x128 ![] bcast_S_S100000x128 (constant S_ .f32 0x00000000#32))

/-- The same round on rows of width 10. -/
def aggregate10 (h : (⟨S100000x10, .f32⟩ : BufTy).Contents (Elt F)) (s d : (⟨S1700000, .i32⟩ : BufTy).Contents (Elt F)) (nrm : (⟨S1700000, .f32⟩ : BufTy).Contents (Elt F)) (b : (⟨S10, .f32⟩ : BufTy).Contents (Elt F)) : (⟨S100000x10, .f32⟩ : BufTy).Contents (Elt F) :=
  addf
    (Host.scatterAdd scatter_S100000x10_S1700000x1_S1700000x10_1_0_0_1
      (broadcastInDim S100000x10 ![] bcast_S_S100000x10 (constant S_ .f32 0x00000000#32))
      (broadcastInDim S1700000x1 ![0] bcast_S1700000_S1700000x1_0 d)
      (mulf
        (Host.gather gather_S100000x10_S1700000x1_S1700000x10_1_0_n_n_0_1_110 h (broadcastInDim S1700000x1 ![0] bcast_S1700000_S1700000x1_0 (wrap s)))
        (broadcastInDim S1700000x10 ![0, 1] bcast_S1700000x1_S1700000x10_0_1 (broadcastInDim S1700000x1 ![0] bcast_S1700000_S1700000x1_0 nrm))))
    (broadcastInDim S100000x10 ![0, 1] bcast_S1x10_S100000x10_0_1 (broadcastInDim S1x10 ![1] bcast_S10_S1x10_1 b))

/-- The whole network over two given dense products `mm1` (rows of 256 by a 256 x 128 matrix) and `mm2` (rows of 128 by a
    128 x 10 matrix). -/
def network
    (mm1 : (⟨S100000x256, .f32⟩ : BufTy).Contents (Elt F) → (⟨S256x128, .f32⟩ : BufTy).Contents (Elt F) → (⟨S100000x128, .f32⟩ : BufTy).Contents (Elt F))
    (mm2 : (⟨S100000x128, .f32⟩ : BufTy).Contents (Elt F) → (⟨S128x10, .f32⟩ : BufTy).Contents (Elt F) → (⟨S100000x10, .f32⟩ : BufTy).Contents (Elt F))
    (x : (⟨S100000x128, .f32⟩ : BufTy).Contents (Elt F)) (ei : (⟨S2x1600000, .i32⟩ : BufTy).Contents (Elt F)) (a : (⟨S100000x128, .f32⟩ : BufTy).Contents (Elt F))
    (W1 : (⟨S256x128, .f32⟩ : BufTy).Contents (Elt F)) (b1 : (⟨S128, .f32⟩ : BufTy).Contents (Elt F)) (W2 : (⟨S128x10, .f32⟩ : BufTy).Contents (Elt F)) (b2 : (⟨S10, .f32⟩ : BufTy).Contents (Elt F)) :
    (⟨S100000x10, .f32⟩ : BufTy).Contents (Elt F) :=
  aggregate10
    (mm2 (relu128 (aggregate128 (mm1 (features x a) W1) (srcIdx ei) (dstIdx ei) (edgeNorm (srcIdx ei) (dstIdx ei)) b1)) W2)
    (srcIdx ei) (dstIdx ei) (edgeNorm (srcIdx ei) (dstIdx ei)) b2

end Cert.KernelIdeal.Graph

end
-- ==== Proof.KernelEntry0.lean ====
/-
  What the kernel's program holds when its first pallas_call is entered.

  Before that call the program runs host operations only: it builds the edge endpoints with the self-loops appended, the
  degrees, the edge weights, and the first layer's input [x − a, a]. Read back through those operations, the buffers the rest
  of the program still needs hold the network's stages of the argument arrays as launched; the weight matrices and biases
  are untouched.
-/
import proofs.«157984_j29643864277070_1_alg».proof.Proof.KernelRun
import proofs.«157984_j29643864277070_1_alg».proof.Proof.Graph
import Idealize.ShloMosaic.Lib.StableHlo.Run

set_option maxRecDepth 16384

noncomputable section

namespace Cert.KernelIdeal.Entry0

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The first call's left operand is [x − a, a]. -/
theorem features_eq (c : Dev nD) :
    W3 m ρ c (Proc.devRef .tc main_v31) = Graph.features (m ((c : Thread nD τ).loc main_arg0)) (m ((c : Thread nD τ).loc main_arg3)) := by
  after_results
  rfl

set_option maxHeartbeats 8000000 in
/-- The sources, self-loops appended. -/
theorem src_eq (c : Dev nD) : W3 m ρ c (Proc.devRef .tc main_v5) = Graph.srcIdx (m ((c : Thread nD τ).loc main_arg1)) := by
  after_results
  rfl

set_option maxHeartbeats 8000000 in
/-- The destinations, self-loops appended. -/
theorem dst_eq (c : Dev nD) : W3 m ρ c (Proc.devRef .tc main_v6) = Graph.dstIdx (m ((c : Thread nD τ).loc main_arg1)) := by
  after_results
  rfl

set_option maxHeartbeats 16000000 in
/-- The edge weights. -/
theorem norm_eq (c : Dev nD) :
    W3 m ρ c (Proc.devRef .tc main_v29) = Graph.edgeNorm (Graph.srcIdx (m ((c : Thread nD τ).loc main_arg1))) (Graph.dstIdx (m ((c : Thread nD τ).loc main_arg1))) := by
  after_results
  rfl

set_option maxHeartbeats 8000000 in
/-- The first layer's matrix is as launched. -/
theorem w1_eq (c : Dev nD) : W3 m ρ c (Proc.devRef .tc main_arg4) = (m ((c : Thread nD τ).loc main_arg4)) := by
  after_results

set_option maxHeartbeats 8000000 in
/-- The first layer's bias is as launched. -/
theorem b1_eq (c : Dev nD) : W3 m ρ c (Proc.devRef .tc main_arg5) = (m ((c : Thread nD τ).loc main_arg5)) := by
  after_results

set_option maxHeartbeats 8000000 in
/-- The second layer's matrix is as launched. -/
theorem w2_eq (c : Dev nD) : W3 m ρ c (Proc.devRef .tc main_arg6) = (m ((c : Thread nD τ).loc main_arg6)) := by
  after_results

set_option maxHeartbeats 8000000 in
/-- The second layer's bias is as launched. -/
theorem b2_eq (c : Dev nD) : W3 m ρ c (Proc.devRef .tc main_arg7) = (m ((c : Thread nD τ).loc main_arg7)) := by
  after_results

end Cert.KernelIdeal.Entry0

end
-- ==== Proof.KernelLater.lean ====
/-
  The kernel's program between and after its two pallas_calls.

  Between the calls the host gathers the first product at the edge sources, scales by the edge weights, adds up at the
  destinations, adds the first bias and takes max(·, 0): the second call's left operand. After the second call the same
  round on rows of width 10 with the second bias gives the result. Each is one stage of the network applied to what the
  buffers held when the stretch began; the buffers a stretch does not write are carried through unchanged.
-/
import proofs.«157984_j29643864277070_1_alg».proof.Proof.KernelRun
import proofs.«157984_j29643864277070_1_alg».proof.Proof.Graph
import Idealize.ShloMosaic.Lib.StableHlo.Run

set_option maxRecDepth 16384

noncomputable section

namespace Cert.KernelIdeal.Later

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 8000000 in
/-- The second call's left operand: the first round of message passing on the first product, then max(·, 0). -/
theorem hidden_eq (c : Dev nD) :
    W6 m ρ c (Proc.devRef .tc main_v49)
      = Graph.relu128 (Graph.aggregate128 (W4 m ρ c (Proc.devRef .tc main_v32)) (W4 m ρ c (Proc.devRef .tc main_v5)) (W4 m ρ c (Proc.devRef .tc main_v6)) (W4 m ρ c (Proc.devRef .tc main_v29)) (W4 m ρ c (Proc.devRef .tc main_arg5))) := by
  after_results_simp
  rfl

set_option maxHeartbeats 8000000 in
theorem src_kept (c : Dev nD) : W6 m ρ c (Proc.devRef .tc main_v5) = W4 m ρ c (Proc.devRef .tc main_v5) := by
  after_results_simp
set_option maxHeartbeats 8000000 in
theorem dst_kept (c : Dev nD) : W6 m ρ c (Proc.devRef .tc main_v6) = W4 m ρ c (Proc.devRef .tc main_v6) := by
  after_results_simp
set_option maxHeartbeats 8000000 in
theorem norm_kept (c : Dev nD) : W6 m ρ c (Proc.devRef .tc main_v29) = W4 m ρ c (Proc.devRef .tc main_v29) := by
  after_results_simp
set_option maxHeartbeats 8000000 in
theorem w2_kept (c : Dev nD) : W6 m ρ c (Proc.devRef .tc main_arg6) = W4 m ρ c (Proc.devRef .tc main_arg6) := by
  after_results_simp
set_option maxHeartbeats 8000000 in
theorem b2_kept (c : Dev nD) : W6 m ρ c (Proc.devRef .tc main_arg7) = W4 m ρ c (Proc.devRef .tc main_arg7) := by
  after_results_simp

set_option maxHeartbeats 8000000 in
/-- The result: the second round of message passing on the second product. -/
theorem out_eq (c : Dev nD) :
    W8 m ρ c (Proc.devRef .tc main_v66)
      = Graph.aggregate10 (W7 m ρ c (Proc.devRef .tc main_v50)) (W7 m ρ c (Proc.devRef .tc main_v5)) (W7 m ρ c (Proc.devRef .tc main_v6)) (W7 m ρ c (Proc.devRef .tc main_v29)) (W7 m ρ c (Proc.devRef .tc main_arg7)) := by
  after_results_simp
  rfl

end Cert.KernelIdeal.Later

end
-- ==== Proof.Region0.lean ====
/-
  The first layer's dense product, as the first pallas_call leaves it in its result array.

  The call walks the 100000 rows of its left operand `a` in 20 blocks of 5000 rows; the right operand `w` (256 x 128)
  is one block that every point sees whole. At a point the body rounds both blocks to bf16 (the identity on the extended
  reals), multiplies them into a zero accumulator and stores the 5000 x 128 product, so the element at block row r and
  column q is  ∑ k < 256, a[5000 t + r, k] * w[k, q].  Every row of the result lies in exactly the block of point
  (row / 5000), so after the last write-back the whole array holds  out[i, q] = ∑ k < 256, a[i, k] * w[k, q],  the plain
  product of the two arrays as the call found them (`product_eq`), whatever those contents are.
-/
import proofs.«157984_j29643864277070_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

/-! ## The product of two arrays, index by index -/

/-- Entry (row of `i`, k) of the left array. -/
abbrev lrow (i : S100000x128.Idx) (k : Fin 256) : S100000x256.Idx := fun a => match a with
  | ⟨0, _⟩ => ⟨(i 0).val, (i 0).isLt⟩
  | ⟨1, _⟩ => ⟨k.val, k.isLt⟩
/-- Entry (k, column of `i`) of the right array. -/
abbrev rcol (i : S100000x128.Idx) (k : Fin 256) : S256x128.Idx := fun a => match a with
  | ⟨0, _⟩ => ⟨k.val, k.isLt⟩
  | ⟨1, _⟩ => ⟨(i 1).val, (i 1).isLt⟩

/-- The matrix product: entry (r, q) is the sum over k of a[r, k] * w[k, q], on the extended reals. -/
def rowsTimesCols (a : (⟨S100000x256, .f32⟩ : BufTy).Contents (Elt Ideal)) (w : (⟨S256x128, .f32⟩ : BufTy).Contents (Elt Ideal)) :
    (⟨S100000x128, .f32⟩ : BufTy).Contents (Elt Ideal) :=
  fun i => ∑ k : Fin 256, a (lrow i k) * w (rcol i k)

/-! ## One block's product -/

/-- Entry (row of `j`, k) of a left block. -/
abbrev brow (j : S5000x128.Idx) (k : Fin 256) : S5000x256.Idx := fun a => match a with
  | ⟨0, _⟩ => ⟨(j 0).val, (j 0).isLt⟩
  | ⟨1, _⟩ => ⟨k.val, k.isLt⟩
/-- Entry (k, column of `j`) of the right block. -/
abbrev bcol (j : S5000x128.Idx) (k : Fin 256) : S256x128.Idx := fun a => match a with
  | ⟨0, _⟩ => ⟨k.val, k.isLt⟩
  | ⟨1, _⟩ => ⟨(j 1).val, (j 1).isLt⟩

theorem lhs_axis0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_axis1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem rhs_axis0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem rhs_axis1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What the body stores, at an entry: rounding to bf16 changes nothing on the extended reals and the accumulator starts
    at zero, so it is the sum over the shared axis of the two blocks' products. -/
theorem block_product (x0 : Vec Ideal S5000x256 .f32) (x1 : Vec Ideal S256x128 .f32) (j : S5000x128.Idx) :
    k0_pay1 (F := Ideal) x0 x1 j = ∑ k : Fin 256, x0 (brow j k) * x1 (bcol j k) := by
  unfold k0_pay1
  rw [shapeCast_self]
  refine (Ideal.matmul_constant_zero_apply dot_S5000x256_S256x128_S5000x128_1_0_0_1_n_n none _ _ j).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = brow j k := funext fun a => Fin.ext (by
    match a with
    | ⟨0, _⟩ => exact lhs_axis0 _ _
    | ⟨1, _⟩ => exact (lhs_axis1 _ _).trans hk)
  have er : dot_S5000x256_S256x128_S5000x128_1_0_0_1_n_n.rhsIdx j ((ValueIdx.contrEquiv1 dot_S5000x256_S256x128_S5000x128_1_0_0_1_n_n 256 rfl rfl).symm k) = bcol j k := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

/-- The left operand array as the call finds it: 100000 rows of 256. -/
abbrev lhsArr (c : Dev nD) : (⟨S100000x256, .f32⟩ : BufTy).Contents (Elt Ideal) := V c main_v31
/-- The right operand array as the call finds it: 256 rows of 128. -/
abbrev rhsArr (c : Dev nD) : (⟨S256x128, .f32⟩ : BufTy).Contents (Elt Ideal) := V c main_arg4

theorem hz : (![0, 0] : Fin 2 → Nat) = fun _ => 0 := funext fun a => by fin_cases a <;> rfl

/-- The index maps over the 20 points: the left operand's and the result's row block is the point's number, and every
    other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the call found them. -/
theorem flushed_eq (c : Dev nD) (t : Fin cfg0.N) :
    (dat0 V c).flushed 2 t = ((cfg0.win 2).blk t).view.read (Elt Ideal) (rowsTimesCols (lhsArr V c) (rhsArr V c)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  funext j
  show k0_pay1 (F := Ideal) (iblk0 V c 0 t) (iblk0 V c 1 t) j
    = rowsTimesCols (lhsArr V c) (rhsArr V c) (((cfg0.win 2).blk t).view.emb j)
  refine (block_product (iblk0 V c 0 t) (iblk0 V c 1 t) j).trans ?_
  unfold rowsTimesCols
  obtain ⟨e00, e01, e10, e11, e20, e21⟩ := idx_facts t
  refine Finset.sum_congr rfl fun k _ => ?_
  show lhsArr V c (((cfg0.win 0).blk t).view.emb (brow j k)) * rhsArr V c (((cfg0.win 1).blk t).view.emb (bcol j k))
    = lhsArr V c (lrow (((cfg0.win 2).blk t).view.emb j) k) * rhsArr V c (rcol (((cfg0.win 2).blk t).view.emb j) k)
  have h0 : ((cfg0.win 0).blk t).view.emb (brow j k) = lrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (bcol j k) = rcol (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An index of the result array lies in point `t`'s block iff each coordinate lies in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row of the result lies in the block of the point numbered (row / 5000). -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨-, -, -, -, e20, e21⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e21]; omega

/-- After the call its result array holds the product of its two operand arrays as the call found them. -/
theorem product_eq (c : Dev nD) :
    (dat0 V c).arrAt 2 cfg0.N = rowsTimesCols (lhsArr V c) (rhsArr V c) :=
  (dat0 V c).arrAt_eq_of_cover 2 (rowsTimesCols (lhsArr V c) (rhsArr V c)) (fun t _ => flushed_eq V c t) covered

end Cert.KernelIdeal.Region0

end
-- ==== Proof.Region1.lean ====
/-
  The second layer's dense product, as the second pallas_call leaves it in its result array.

  The call walks the 100000 rows of its left operand `a` in 20 blocks of 5000 rows; the right operand `w` (128 x 10)
  is one block that every point sees whole. At a point the body rounds both blocks to bf16 (the identity on the extended
  reals), multiplies them into a zero accumulator and stores the 5000 x 10 product, so the element at block row r and
  column q is  ∑ k < 128, a[5000 t + r, k] * w[k, q].  Every row of the result lies in exactly the block of point
  (row / 5000), so after the last write-back the whole array holds  out[i, q] = ∑ k < 128, a[i, k] * w[k, q],  the plain
  product of the two arrays as the call found them (`product_eq`), whatever those contents are.
-/
import proofs.«157984_j29643864277070_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

/-! ## The product of two arrays, index by index -/

/-- Entry (row of `i`, k) of the left array. -/
abbrev lrow (i : S100000x10.Idx) (k : Fin 128) : S100000x128.Idx := fun a => match a with
  | ⟨0, _⟩ => ⟨(i 0).val, (i 0).isLt⟩
  | ⟨1, _⟩ => ⟨k.val, k.isLt⟩
/-- Entry (k, column of `i`) of the right array. -/
abbrev rcol (i : S100000x10.Idx) (k : Fin 128) : S128x10.Idx := fun a => match a with
  | ⟨0, _⟩ => ⟨k.val, k.isLt⟩
  | ⟨1, _⟩ => ⟨(i 1).val, (i 1).isLt⟩

/-- The matrix product: entry (r, q) is the sum over k of a[r, k] * w[k, q], on the extended reals. -/
def rowsTimesCols (a : (⟨S100000x128, .f32⟩ : BufTy).Contents (Elt Ideal)) (w : (⟨S128x10, .f32⟩ : BufTy).Contents (Elt Ideal)) :
    (⟨S100000x10, .f32⟩ : BufTy).Contents (Elt Ideal) :=
  fun i => ∑ k : Fin 128, a (lrow i k) * w (rcol i k)

/-! ## One block's product -/

/-- Entry (row of `j`, k) of a left block. -/
abbrev brow (j : S5000x10.Idx) (k : Fin 128) : S5000x128.Idx := fun a => match a with
  | ⟨0, _⟩ => ⟨(j 0).val, (j 0).isLt⟩
  | ⟨1, _⟩ => ⟨k.val, k.isLt⟩
/-- Entry (k, column of `j`) of the right block. -/
abbrev bcol (j : S5000x10.Idx) (k : Fin 128) : S128x10.Idx := fun a => match a with
  | ⟨0, _⟩ => ⟨k.val, k.isLt⟩
  | ⟨1, _⟩ => ⟨(j 1).val, (j 1).isLt⟩

theorem lhs_axis0 (j : S5000x10.Idx) (q : dot_S5000x128_S128x10_S5000x10_1_0_0_1_n_n.contr.Idx) :
    (dot_S5000x128_S128x10_S5000x10_1_0_0_1_n_n.lhsIdx j q 0).val = (j 0).val := by
  unfold DotDims.lhsIdx
  rw [dif_neg (show ¬(0 : Fin S5000x128.rank) ∈ dot_S5000x128_S128x10_S5000x10_1_0_0_1_n_n.lhsBatch by decide), dif_pos (show (0 : Fin S5000x128.rank) ∈ dot_S5000x128_S128x10_S5000x10_1_0_0_1_n_n.lhsNonContracting by decide)]
  rfl
theorem lhs_axis1 (j : S5000x10.Idx) (q : dot_S5000x128_S128x10_S5000x10_1_0_0_1_n_n.contr.Idx) :
    (dot_S5000x128_S128x10_S5000x10_1_0_0_1_n_n.lhsIdx j q 1).val = (q ⟨0, by decide⟩).val :=
  dot_S5000x128_S128x10_S5000x10_1_0_0_1_n_n.lhsIdx_val_of_single rfl j q
theorem rhs_axis0 (j : S5000x10.Idx) (q : dot_S5000x128_S128x10_S5000x10_1_0_0_1_n_n.contr.Idx) :
    (dot_S5000x128_S128x10_S5000x10_1_0_0_1_n_n.rhsIdx j q 0).val = (q ⟨0, by decide⟩).val :=
  dot_S5000x128_S128x10_S5000x10_1_0_0_1_n_n.rhsIdx_val_of_single rfl j q
theorem rhs_axis1 (j : S5000x10.Idx) (q : dot_S5000x128_S128x10_S5000x10_1_0_0_1_n_n.contr.Idx) :
    (dot_S5000x128_S128x10_S5000x10_1_0_0_1_n_n.rhsIdx j q 1).val = (j 1).val := by
  unfold DotDims.rhsIdx
  rw [dif_neg (show ¬(1 : Fin S128x10.rank) ∈ dot_S5000x128_S128x10_S5000x10_1_0_0_1_n_n.rhsBatch by decide), dif_pos (show (1 : Fin S128x10.rank) ∈ dot_S5000x128_S128x10_S5000x10_1_0_0_1_n_n.rhsNonContracting by decide)]
  rfl

/-- What the body stores, at an entry: rounding to bf16 changes nothing on the extended reals and the accumulator starts
    at zero, so it is the sum over the shared axis of the two blocks' products. -/
theorem block_product (x0 : Vec Ideal S5000x128 .f32) (x1 : Vec Ideal S128x10 .f32) (j : S5000x10.Idx) :
    k1_pay1 (F := Ideal) x0 x1 j = ∑ k : Fin 128, x0 (brow j k) * x1 (bcol j k) := by
  unfold k1_pay1
  rw [shapeCast_self]
  refine (Ideal.matmul_constant_zero_apply dot_S5000x128_S128x10_S5000x10_1_0_0_1_n_n none _ _ j).trans ?_
  rw [← Equiv.sum_comp (ValueIdx.contrEquiv1 dot_S5000x128_S128x10_S5000x10_1_0_0_1_n_n 128 rfl rfl).symm]
  refine Finset.sum_congr rfl fun k _ => ?_
  have hk := ValueIdx.contrEquiv1_symm_val dot_S5000x128_S128x10_S5000x10_1_0_0_1_n_n 128 rfl rfl k
  have el : dot_S5000x128_S128x10_S5000x10_1_0_0_1_n_n.lhsIdx j ((ValueIdx.contrEquiv1 dot_S5000x128_S128x10_S5000x10_1_0_0_1_n_n 128 rfl rfl).symm k) = brow j k := funext fun a => Fin.ext (by
    match a with
    | ⟨0, _⟩ => exact lhs_axis0 _ _
    | ⟨1, _⟩ => exact (lhs_axis1 _ _).trans hk)
  have er : dot_S5000x128_S128x10_S5000x10_1_0_0_1_n_n.rhsIdx j ((ValueIdx.contrEquiv1 dot_S5000x128_S128x10_S5000x10_1_0_0_1_n_n 128 rfl rfl).symm k) = bcol j k := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

/-- The left operand array as the call finds it: 100000 rows of 128. -/
abbrev lhsArr (c : Dev nD) : (⟨S100000x128, .f32⟩ : BufTy).Contents (Elt Ideal) := V c main_v49
/-- The right operand array as the call finds it: 128 rows of 10. -/
abbrev rhsArr (c : Dev nD) : (⟨S128x10, .f32⟩ : BufTy).Contents (Elt Ideal) := V c main_arg6

theorem hz : (![0, 0] : Fin 2 → Nat) = fun _ => 0 := funext fun a => by fin_cases a <;> rfl

/-- The index maps over the 20 points: the left operand's and the result's row block is the point's number, and every
    other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the call found them. -/
theorem flushed_eq (c : Dev nD) (t : Fin cfg1.N) :
    (dat1 V c).flushed 2 t = ((cfg1.win 2).blk t).view.read (Elt Ideal) (rowsTimesCols (lhsArr V c) (rhsArr V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x10) hz]
  funext j
  show k1_pay1 (F := Ideal) (iblk1 V c 0 t) (iblk1 V c 1 t) j
    = rowsTimesCols (lhsArr V c) (rhsArr V c) (((cfg1.win 2).blk t).view.emb j)
  refine (block_product (iblk1 V c 0 t) (iblk1 V c 1 t) j).trans ?_
  unfold rowsTimesCols
  obtain ⟨e00, e01, e10, e11, e20, e21⟩ := idx_facts t
  refine Finset.sum_congr rfl fun k _ => ?_
  show lhsArr V c (((cfg1.win 0).blk t).view.emb (brow j k)) * rhsArr V c (((cfg1.win 1).blk t).view.emb (bcol j k))
    = lhsArr V c (lrow (((cfg1.win 2).blk t).view.emb j) k) * rhsArr V c (rcol (((cfg1.win 2).blk t).view.emb j) k)
  have h0 : ((cfg1.win 0).blk t).view.emb (brow j k) = lrow (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : ((cfg1.win 1).blk t).view.emb (bcol j k) = rcol (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 10 + 1 * (j 1).val = win1_2.index t (1 : Fin 2) * 10 + 1 * (j 1).val; omega
  rw [h0, h1]

/-- An index of the result array lies in point `t`'s block iff each coordinate lies in the block's range on its axis. -/
theorem mem_blk (t : Fin cfg1.N) (i : S100000x10.Idx) :
    i ∈ ((cfg1.win 2).blk t).view.set ↔ ∀ a : Fin 2, win1_2.index t a * S5000x10.size a ≤ (i a).val ∧ (i a).val < win1_2.index t a * S5000x10.size a + S5000x10.size a := by
  show i ∈ ((View.whole main_v50).slice (win1_2.rect t)).set ↔ _
  rw [View.set_slice_whole, Rect.mem_set_unit]
  exact Iff.rfl

/-- Every row of the result lies in the block of the point numbered (row / 5000). -/
theorem covered (i : S100000x10.Idx) : ∃ t : Fin cfg1.N, (cfg1.win 2).flush t = true ∧ i ∈ ((cfg1.win 2).blk t).view.set := by
  have hi0 : (i 0).val < 100000 := (i 0).isLt
  have hi1 : (i 1).val < 10 := (i 1).isLt
  have hN : cfg1.N = 20 := N_1
  refine ⟨⟨(i 0).val / 5000, by rw [hN]; omega⟩, flush1_2 _, ?_⟩
  rw [mem_blk]
  obtain ⟨-, -, -, -, e20, e21⟩ := idx_facts ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e20]; show (i 0).val / 5000 * 5000 ≤ (i 0).val ∧ (i 0).val < (i 0).val / 5000 * 5000 + 5000; omega
  | ⟨1, _⟩ =>
    show win1_2.index _ (1 : Fin 2) * 10 ≤ (i 1).val ∧ (i 1).val < win1_2.index _ (1 : Fin 2) * 10 + 10
    rw [e21]; omega

/-- After the call its result array holds the product of its two operand arrays as the call found them. -/
theorem product_eq (c : Dev nD) :
    (dat1 V c).arrAt 2 cfg1.N = rowsTimesCols (lhsArr V c) (rhsArr V c) :=
  (dat1 V c).arrAt_eq_of_cover 2 (rowsTimesCols (lhsArr V c) (rhsArr V c)) (fun t _ => flushed_eq V c t) covered

end Cert.KernelIdeal.Region1

end
-- ==== Proof.KernelValue.lean ====
/-
  What the kernel's program returns, on the extended reals.

  Reading its buffers back from the end: the result is the second round of message passing on the second call's product;
  that call's left operand is max(·, 0) of the first round on the first call's product; the first call's operands are
  [x − a, a] and the first matrix. Each call leaves the plain product of its operand arrays as it found them (Region0,
  Region1), each host stretch applies one stage of the network, and what a stretch or a call does not write is carried through
  unchanged. Composed, the result array holds `network` of the argument arrays as launched, with both products the plain sums.
-/
import proofs.«157984_j29643864277070_1_alg».proof.Proof.KernelEntry0
import proofs.«157984_j29643864277070_1_alg».proof.Proof.KernelLater
import proofs.«157984_j29643864277070_1_alg».proof.Proof.Region0
import proofs.«157984_j29643864277070_1_alg».proof.Proof.Region1

set_option maxRecDepth 16384

noncomputable section

namespace Cert.KernelIdeal.Result

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## What the first call does not write, after it -/

theorem src_at4 (c : Dev nD) : W4 m ρ c (Proc.devRef .tc main_v5) = Graph.srcIdx (m ((c : Thread nD τ).loc main_arg1)) :=
  (W4_of_ne m ρ c main_v5 (by decide)).trans (Entry0.src_eq m ρ c)
theorem dst_at4 (c : Dev nD) : W4 m ρ c (Proc.devRef .tc main_v6) = Graph.dstIdx (m ((c : Thread nD τ).loc main_arg1)) :=
  (W4_of_ne m ρ c main_v6 (by decide)).trans (Entry0.dst_eq m ρ c)
theorem norm_at4 (c : Dev nD) : W4 m ρ c (Proc.devRef .tc main_v29) = Graph.edgeNorm (Graph.srcIdx (m ((c : Thread nD τ).loc main_arg1))) (Graph.dstIdx (m ((c : Thread nD τ).loc main_arg1))) :=
  (W4_of_ne m ρ c main_v29 (by decide)).trans (Entry0.norm_eq m ρ c)
theorem b1_at4 (c : Dev nD) : W4 m ρ c (Proc.devRef .tc main_arg5) = (m ((c : Thread nD τ).loc main_arg5)) :=
  (W4_of_ne m ρ c main_arg5 (by decide)).trans (Entry0.b1_eq m ρ c)
theorem w2_at4 (c : Dev nD) : W4 m ρ c (Proc.devRef .tc main_arg6) = (m ((c : Thread nD τ).loc main_arg6)) :=
  (W4_of_ne m ρ c main_arg6 (by decide)).trans (Entry0.w2_eq m ρ c)
theorem b2_at4 (c : Dev nD) : W4 m ρ c (Proc.devRef .tc main_arg7) = (m ((c : Thread nD τ).loc main_arg7)) :=
  (W4_of_ne m ρ c main_arg7 (by decide)).trans (Entry0.b2_eq m ρ c)

/-- The first call's result array: the plain product of [x − a, a] and the first matrix. -/
theorem first_product (c : Dev nD) :
    W4 m ρ c (Proc.devRef .tc main_v32) = Region0.rowsTimesCols (Graph.features (m ((c : Thread nD τ).loc main_arg0)) (m ((c : Thread nD τ).loc main_arg3))) (m ((c : Thread nD τ).loc main_arg4)) := by
  refine (W4_arr m ρ c 2).trans ?_
  refine (Region0.product_eq (V3 m ρ) c).trans ?_
  show Region0.rowsTimesCols (W3 m ρ c (Proc.devRef .tc main_v31)) (W3 m ρ c (Proc.devRef .tc main_arg4)) = _
  rw [Entry0.features_eq, Entry0.w1_eq]

/-- The second call's left operand: the hidden layer. -/
theorem hidden (c : Dev nD) :
    W6 m ρ c (Proc.devRef .tc main_v49)
      = Graph.relu128 (Graph.aggregate128 (Region0.rowsTimesCols (Graph.features (m ((c : Thread nD τ).loc main_arg0)) (m ((c : Thread nD τ).loc main_arg3))) (m ((c : Thread nD τ).loc main_arg4)))
          (Graph.srcIdx (m ((c : Thread nD τ).loc main_arg1))) (Graph.dstIdx (m ((c : Thread nD τ).loc main_arg1))) (Graph.edgeNorm (Graph.srcIdx (m ((c : Thread nD τ).loc main_arg1))) (Graph.dstIdx (m ((c : Thread nD τ).loc main_arg1)))) (m ((c : Thread nD τ).loc main_arg5))) := by
  rw [Later.hidden_eq, first_product, src_at4, dst_at4, norm_at4, b1_at4]

/-! ## What the second call does not write, after it -/

theorem src_at7 (c : Dev nD) : W7 m ρ c (Proc.devRef .tc main_v5) = Graph.srcIdx (m ((c : Thread nD τ).loc main_arg1)) :=
  (W7_of_ne m ρ c main_v5 (by decide)).trans ((Later.src_kept m ρ c).trans (src_at4 m ρ c))
theorem dst_at7 (c : Dev nD) : W7 m ρ c (Proc.devRef .tc main_v6) = Graph.dstIdx (m ((c : Thread nD τ).loc main_arg1)) :=
  (W7_of_ne m ρ c main_v6 (by decide)).trans ((Later.dst_kept m ρ c).trans (dst_at4 m ρ c))
theorem norm_at7 (c : Dev nD) : W7 m ρ c (Proc.devRef .tc main_v29) = Graph.edgeNorm (Graph.srcIdx (m ((c : Thread nD τ).loc main_arg1))) (Graph.dstIdx (m ((c : Thread nD τ).loc main_arg1))) :=
  (W7_of_ne m ρ c main_v29 (by decide)).trans ((Later.norm_kept m ρ c).trans (norm_at4 m ρ c))
theorem b2_at7 (c : Dev nD) : W7 m ρ c (Proc.devRef .tc main_arg7) = (m ((c : Thread nD τ).loc main_arg7)) :=
  (W7_of_ne m ρ c main_arg7 (by decide)).trans ((Later.b2_kept m ρ c).trans (b2_at4 m ρ c))

/-- The second call's result array: the plain product of the hidden layer and the second matrix. -/
theorem second_product (c : Dev nD) :
    W7 m ρ c (Proc.devRef .tc main_v50)
      = Region1.rowsTimesCols
          (Graph.relu128 (Graph.aggregate128 (Region0.rowsTimesCols (Graph.features (m ((c : Thread nD τ).loc main_arg0)) (m ((c : Thread nD τ).loc main_arg3))) (m ((c : Thread nD τ).loc main_arg4)))
            (Graph.srcIdx (m ((c : Thread nD τ).loc main_arg1))) (Graph.dstIdx (m ((c : Thread nD τ).loc main_arg1))) (Graph.edgeNorm (Graph.srcIdx (m ((c : Thread nD τ).loc main_arg1))) (Graph.dstIdx (m ((c : Thread nD τ).loc main_arg1)))) (m ((c : Thread nD τ).loc main_arg5))))
          (m ((c : Thread nD τ).loc main_arg6)) := by
  refine (W7_arr m ρ c 2).trans ?_
  refine (Region1.product_eq (V6 m ρ) c).trans ?_
  show Region1.rowsTimesCols (W6 m ρ c (Proc.devRef .tc main_v49)) (W6 m ρ c (Proc.devRef .tc main_arg6)) = _
  rw [hidden, Later.w2_kept, w2_at4]

/-- THE RESULT: the network of the argument arrays as launched. -/
theorem value (c : Dev nD) :
    W8 m ρ c (Proc.devRef .tc main_v66)
      = Graph.network (F := Ideal) Region0.rowsTimesCols Region1.rowsTimesCols
          (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Later.out_eq, second_product, src_at7, dst_at7, norm_at7, b2_at7]
  rfl

end Cert.KernelIdeal.Result

end
-- ==== Proof.RefProduct1.lean ====
/-
  The reference's dense product of the first layer, on the extended reals.

  The host computes the layer's linear step as one `dot_general` contracting the left operand's columns with the right
  operand's rows. On the extended reals that is, entry by entry, the plain sum  ∑ k < 256, l[r, k] * w[k, q]  — the same
  function of the two operands that the kernel's tiled call leaves in its result array. Stated for ANY operands, so that
  it can be used under the rest of the layer.
-/
import proofs.«157984_j29643864277070_1_alg».proof.ReferenceIdeal
import proofs.«157984_j29643864277070_1_alg».proof.Proof.Gen.ReferenceIdeal
import proofs.«157984_j29643864277070_1_alg».proof.Proof.Region0
import Idealize.ShloMosaic.Lib.ValueIdx
import Idealize.ShloMosaic.PureOps.Ideal.Laws

noncomputable section

namespace Cert.ReferenceIdeal.Product1

open Cert.ReferenceIdeal Cert.ReferenceIdeal.Gen
open Idealize.ShloMosaic Idealize.ShloMosaic.TcCoe Idealize.SL.Sem

theorem lhs_axis0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl
theorem lhs_axis1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q
theorem rhs_axis0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q
theorem rhs_axis1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

/-- The host's product, for any two operands: entry (r, q) is the sum over the shared axis of l[r, k] * w[k, q]. -/
theorem product_eq (l : FVec Ideal S100000x256 .f32) (w : FVec Ideal S256x128 .f32) :
    Host.dotGeneral (F := Ideal) dot_S100000x256_S256x128_S100000x128_1_0_0_1_n_n none l w = Cert.KernelIdeal.Region0.rowsTimesCols l w := by
  funext i
  simp only [Host.dotGeneral]
  rw [Ideal.dotGeneral_apply, ← Equiv.sum_comp (ValueIdx.contrEquiv1 dot_S100000x256_S256x128_S100000x128_1_0_0_1_n_n 256 rfl rfl).symm]
  unfold Cert.KernelIdeal.Region0.rowsTimesCols
  refine Finset.sum_congr rfl fun k _ => ?_
  have hk := ValueIdx.contrEquiv1_symm_val dot_S100000x256_S256x128_S100000x128_1_0_0_1_n_n 256 rfl rfl k
  have el : dot_S100000x256_S256x128_S100000x128_1_0_0_1_n_n.lhsIdx i ((ValueIdx.contrEquiv1 dot_S100000x256_S256x128_S100000x128_1_0_0_1_n_n 256 rfl rfl).symm k) = Cert.KernelIdeal.Region0.lrow i k := funext fun a => Fin.ext (by
    match a with
    | ⟨0, _⟩ => exact lhs_axis0 _ _
    | ⟨1, _⟩ => exact (lhs_axis1 _ _).trans hk)
  have er : dot_S100000x256_S256x128_S100000x128_1_0_0_1_n_n.rhsIdx i ((ValueIdx.contrEquiv1 dot_S100000x256_S256x128_S100000x128_1_0_0_1_n_n 256 rfl rfl).symm k) = Cert.KernelIdeal.Region0.rcol i k := funext fun a => Fin.ext (by
    match a with
    | ⟨0, _⟩ => exact (rhs_axis0 _ _).trans hk
    | ⟨1, _⟩ => exact rhs_axis1 _ _)
  rw [el, er]

end Cert.ReferenceIdeal.Product1

end
-- ==== Proof.RefProduct2.lean ====
/-
  The reference's dense product of the second layer, on the extended reals.

  The host computes the layer's linear step as one `dot_general` contracting the left operand's columns with the right
  operand's rows. On the extended reals that is, entry by entry, the plain sum  ∑ k < 128, l[r, k] * w[k, q]  — the same
  function of the two operands that the kernel's tiled call leaves in its result array. Stated for ANY operands, so that
  it can be used under the rest of the layer.
-/
import proofs.«157984_j29643864277070_1_alg».proof.ReferenceIdeal
import proofs.«157984_j29643864277070_1_alg».proof.Proof.Gen.ReferenceIdeal
import proofs.«157984_j29643864277070_1_alg».proof.Proof.Region1
import Idealize.ShloMosaic.Lib.ValueIdx
import Idealize.ShloMosaic.PureOps.Ideal.Laws

noncomputable section

namespace Cert.ReferenceIdeal.Product2

open Cert.ReferenceIdeal Cert.ReferenceIdeal.Gen
open Idealize.ShloMosaic Idealize.ShloMosaic.TcCoe Idealize.SL.Sem

theorem lhs_axis0 (i : S100000x10.Idx) (q : dot_S100000x128_S128x10_S100000x10_1_0_0_1_n_n.contr.Idx) :
    (dot_S100000x128_S128x10_S100000x10_1_0_0_1_n_n.lhsIdx i q 0).val = (i 0).val := by
  unfold DotDims.lhsIdx
  rw [dif_neg (show ¬(0 : Fin S100000x128.rank) ∈ dot_S100000x128_S128x10_S100000x10_1_0_0_1_n_n.lhsBatch by decide), dif_pos (show (0 : Fin S100000x128.rank) ∈ dot_S100000x128_S128x10_S100000x10_1_0_0_1_n_n.lhsNonContracting by decide)]
  rfl
theorem lhs_axis1 (i : S100000x10.Idx) (q : dot_S100000x128_S128x10_S100000x10_1_0_0_1_n_n.contr.Idx) :
    (dot_S100000x128_S128x10_S100000x10_1_0_0_1_n_n.lhsIdx i q 1).val = (q ⟨0, by decide⟩).val :=
  dot_S100000x128_S128x10_S100000x10_1_0_0_1_n_n.lhsIdx_val_of_single rfl i q
theorem rhs_axis0 (i : S100000x10.Idx) (q : dot_S100000x128_S128x10_S100000x10_1_0_0_1_n_n.contr.Idx) :
    (dot_S100000x128_S128x10_S100000x10_1_0_0_1_n_n.rhsIdx i q 0).val = (q ⟨0, by decide⟩).val :=
  dot_S100000x128_S128x10_S100000x10_1_0_0_1_n_n.rhsIdx_val_of_single rfl i q
theorem rhs_axis1 (i : S100000x10.Idx) (q : dot_S100000x128_S128x10_S100000x10_1_0_0_1_n_n.contr.Idx) :
    (dot_S100000x128_S128x10_S100000x10_1_0_0_1_n_n.rhsIdx i q 1).val = (i 1).val := by
  unfold DotDims.rhsIdx
  rw [dif_neg (show ¬(1 : Fin S128x10.rank) ∈ dot_S100000x128_S128x10_S100000x10_1_0_0_1_n_n.rhsBatch by decide), dif_pos (show (1 : Fin S128x10.rank) ∈ dot_S100000x128_S128x10_S100000x10_1_0_0_1_n_n.rhsNonContracting by decide)]
  rfl

/-- The host's product, for any two operands: entry (r, q) is the sum over the shared axis of l[r, k] * w[k, q]. -/
theorem product_eq (l : FVec Ideal S100000x128 .f32) (w : FVec Ideal S128x10 .f32) :
    Host.dotGeneral (F := Ideal) dot_S100000x128_S128x10_S100000x10_1_0_0_1_n_n none l w = Cert.KernelIdeal.Region1.rowsTimesCols l w := by
  funext i
  simp only [Host.dotGeneral]
  rw [Ideal.dotGeneral_apply, ← Equiv.sum_comp (ValueIdx.contrEquiv1 dot_S100000x128_S128x10_S100000x10_1_0_0_1_n_n 128 rfl rfl).symm]
  unfold Cert.KernelIdeal.Region1.rowsTimesCols
  refine Finset.sum_congr rfl fun k _ => ?_
  have hk := ValueIdx.contrEquiv1_symm_val dot_S100000x128_S128x10_S100000x10_1_0_0_1_n_n 128 rfl rfl k
  have el : dot_S100000x128_S128x10_S100000x10_1_0_0_1_n_n.lhsIdx i ((ValueIdx.contrEquiv1 dot_S100000x128_S128x10_S100000x10_1_0_0_1_n_n 128 rfl rfl).symm k) = Cert.KernelIdeal.Region1.lrow i k := funext fun a => Fin.ext (by
    match a with
    | ⟨0, _⟩ => exact lhs_axis0 _ _
    | ⟨1, _⟩ => exact (lhs_axis1 _ _).trans hk)
  have er : dot_S100000x128_S128x10_S100000x10_1_0_0_1_n_n.rhsIdx i ((ValueIdx.contrEquiv1 dot_S100000x128_S128x10_S100000x10_1_0_0_1_n_n 128 rfl rfl).symm k) = Cert.KernelIdeal.Region1.rcol i k := funext fun a => Fin.ext (by
    match a with
    | ⟨0, _⟩ => exact (rhs_axis0 _ _).trans hk
    | ⟨1, _⟩ => exact rhs_axis1 _ _)
  rw [el, er]

end Cert.ReferenceIdeal.Product2

end
-- ==== Proof.RefValue.lean ====
/-
  The reference computes the same network.

  Its program is host operations only: the endpoints, degrees and edge weights (built once per layer, by the same
  operations each time), the input [x − a, a], and per layer one host product followed by the round of message passing.
  Term for term that is `network` over the two host products, for any float family; on the extended reals each host product
  is the plain sum of products over the shared axis, which is what the kernel's tiled calls compute.
-/
import proofs.«157984_j29643864277070_1_alg».proof.Proof.RefRun
import proofs.«157984_j29643864277070_1_alg».proof.Proof.Graph
import proofs.«157984_j29643864277070_1_alg».proof.Proof.RefProduct1
import proofs.«157984_j29643864277070_1_alg».proof.Proof.RefProduct2

set_option maxRecDepth 16384

noncomputable section

namespace Cert.ReferenceIdeal.Network

open Cert.ReferenceIdeal Cert.ReferenceIdeal.Gen Cert.ReferenceIdeal.Value
open Idealize.ShloMosaic Idealize.ShloMosaic.TcCoe Idealize.SL.Sem

set_option maxHeartbeats 8000000 in
/-- The reference's result term is the network over its two host products, at any float family. -/
theorem term_eq {F : FTy → Type} [FloatOps F] (m : (ℓ : Loc nD τ sig) → Buf (Elt F) ℓ) (c : Dev nD) :
    res_main_v92 (F := F) m c
      = Cert.KernelIdeal.Graph.network (F := F)
          (fun l w => Host.dotGeneral dot_S100000x256_S256x128_S100000x128_1_0_0_1_n_n none l w)
          (fun l w => Host.dotGeneral dot_S100000x128_S128x10_S100000x10_1_0_0_1_n_n none l w)
          (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v92
  rfl

/-- On the extended reals: the network over the plain products. -/
theorem value (m : (ℓ : Loc nD τ sig) → Buf (Elt Ideal) ℓ) (c : Dev nD) :
    res_main_v92 (F := Ideal) m c
      = Cert.KernelIdeal.Graph.network (F := Ideal) Cert.KernelIdeal.Region0.rowsTimesCols Cert.KernelIdeal.Region1.rowsTimesCols
          (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have e1 : (fun l w => Host.dotGeneral (F := Ideal) dot_S100000x256_S256x128_S100000x128_1_0_0_1_n_n none l w)
      = Cert.KernelIdeal.Region0.rowsTimesCols := funext fun l => funext fun w => Product1.product_eq l w
  have e2 : (fun l w => Host.dotGeneral (F := Ideal) dot_S100000x128_S128x10_S100000x10_1_0_0_1_n_n none l w)
      = Cert.KernelIdeal.Region1.rowsTimesCols := funext fun l => funext fun w => Product2.product_eq l w
  rw [term_eq, e1, e2]

end Cert.ReferenceIdeal.Network

end
-- ==== Proof.lean ====
/-
  A two-layer graph convolution with bf16 matrix units against its plain jnp reference: equal on the extended reals.

  Both programs compute, for node features x, anchors a, an edge list, and two layers (W1, b1), (W2, b2):
      h0 = [x − a, a]                                  (rows of width 256)
      h1 = max(A (h0 W1) + b1, 0)                      (rows of width 128)
      out = A (h1 W2) + b2                             (rows of width 10)
  where A is the normalised adjacency with self-loops, applied as gather at the sources, scaling by the edge weights
  1/sqrt(deg(src) deg(dst)), and scatter-add at the destinations. The kernel computes the two dense products h0 W1 and h1 W2
  in pallas_calls that walk the 100000 rows in 20 blocks of 5000, rounding the blocks to bf16 on the way into the matrix
  unit and accumulating in f32 from zero; everything else is the same host operations as in the reference, except that the
  kernel builds the degrees and edge weights once and the reference once per layer.

  On the extended reals rounding is the identity and a block product into a zero accumulator is the plain sum over the shared
  axis, so each call leaves exactly  ∑ k, l[i, k] * w[k, q]  in its result array (Region0, Region1), and the host's
  `dot_general` is the same sum (RefProduct1, RefProduct2). No law of arithmetic beyond that is used: both sides are one and
  the same composition `Graph.network` of the argument arrays, so the claim holds at every input and the finiteness of the
  inputs is never opened.

  The frames of the two kernel programs are the generated ones; the reference's is its run with the result dropped.
  Nothing was rewritten by the idealization, so `preserves` asks nothing.
-/
import proofs.«157984_j29643864277070_1_alg».proof.Defs
import proofs.«157984_j29643864277070_1_alg».proof.Proof.Gen.Kernel
import proofs.«157984_j29643864277070_1_alg».proof.Proof.Gen.Kernel.Skeleton
import proofs.«157984_j29643864277070_1_alg».proof.Proof.Gen.Kernel.Launch
import proofs.«157984_j29643864277070_1_alg».proof.Proof.Gen.Kernel.Points
import proofs.«157984_j29643864277070_1_alg».proof.Proof.Gen.Kernel.Frame
import proofs.«157984_j29643864277070_1_alg».proof.Proof.Gen.KernelIdeal
import proofs.«157984_j29643864277070_1_alg».proof.Proof.Gen.KernelIdeal.Skeleton
import proofs.«157984_j29643864277070_1_alg».proof.Proof.Gen.KernelIdeal.Launch
import proofs.«157984_j29643864277070_1_alg».proof.Proof.Gen.KernelIdeal.Points
import proofs.«157984_j29643864277070_1_alg».proof.Proof.Gen.KernelIdeal.Frame
import proofs.«157984_j29643864277070_1_alg».proof.Proof.Gen.ReferenceIdeal
import proofs.«157984_j29643864277070_1_alg».proof.Proof.Gen.Pre_finite_inputs
import proofs.«157984_j29643864277070_1_alg».proof.Proof.KernelRun
import proofs.«157984_j29643864277070_1_alg».proof.Proof.KernelValue
import proofs.«157984_j29643864277070_1_alg».proof.Proof.RefRun
import proofs.«157984_j29643864277070_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the (agreeing) argument arrays in their result array. -/
theorem algebraic : Cert.algebraic_KernelIdeal_ReferenceIdeal := by
  intro m ρ m' ρ' _ hagree
  refine ⟨fun c => Cert.KernelIdeal.Graph.network (F := Ideal) Cert.KernelIdeal.Region0.rowsTimesCols Cert.KernelIdeal.Region1.rowsTimesCols
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.value m ρ c), (h c).2⟩)
      (Cert.KernelIdeal.Whole.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Network.value m' c, e0, e1, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
